-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S1024 : Shape := ⟨1, ![1024]⟩
abbrev S1024x1024 : Shape := ⟨2, ![1024, 1024]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x8x1024 .f32) (main_arg1 : FVec F S1024 .f32) (main_arg2 : FVec F S1024 .f32) (main_arg3 : FVec F S1024x1024 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x8x1024 : Shape := ⟨3, ![4096, 8, 1024]⟩
abbrev S1024 : Shape := ⟨1, ![1024]⟩
abbrev S1024x1024 : Shape := ⟨2, ![1024, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S4096x8x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S32768x1024, .f32⟩
  | .hbm, ⟨9, _⟩ => ⟨S32768x1024, .f32⟩
  | .hbm, ⟨10, _⟩ => ⟨S4096x8x1024, .f32⟩
  | .hbm, ⟨11, _⟩ => ⟨S4096x8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096x8x1024_S32768x1024 : S4096x8x1024.ShapeCasts S32768x1024
  shapeCasts_S1024_S1x1024 : S1024.ShapeCasts S1x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S32768x1024_S4096x8x1024 : S32768x1024.ShapeCasts S4096x8x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S32768x1024.size a
  hwx0_4 : ∀ i : grid0.Coords, EltTy.bits .f32 = 32 ∨ (Rect.block (s := S32768x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x8x1024 : Shape := ⟨3, ![4096, 8, 1024]⟩
abbrev S1024 : Shape := ⟨1, ![1024]⟩
abbrev S1024x1024 : Shape := ⟨2, ![1024, 1024]⟩
abbrev S_ : Shape := ⟨0, ![]⟩
abbrev S4096x8 : Shape := ⟨2, ![4096, 8]⟩
abbrev S4096x8x1 : Shape := ⟨3, ![4096, 8, 1]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x8x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S4096x8, .f32⟩
  | .hbm, ⟨6, _⟩ => ⟨S4096x8x1, .f32⟩
  | .hbm, ⟨7, _⟩ => ⟨S_, .f32⟩
  | .hbm, ⟨8, _⟩ => ⟨S4096x8x1, .f32⟩
  | .hbm, ⟨9, _⟩ => ⟨S4096x8x1, .f32⟩
  | .hbm, ⟨10, _⟩ => ⟨S4096x8x1024, .f32⟩
  | .hbm, ⟨11, _⟩ => ⟨S4096x8x1024, .f32⟩
  | .hbm, ⟨12, _⟩ => ⟨S4096x8x1024, .f32⟩
  | .hbm, ⟨13, _⟩ => ⟨S_, .f32⟩
  | .hbm, ⟨14, _⟩ => ⟨S4096x8, .f32⟩
  | .hbm, ⟨15, _⟩ => ⟨S4096x8x1, .f32⟩
  | .hbm, ⟨16, _⟩ => ⟨S_, .f32⟩
  | .hbm, ⟨17, _⟩ => ⟨S4096x8x1, .f32⟩
  | .hbm, ⟨18, _⟩ => ⟨S4096x8x1, .f32⟩
  | .hbm, ⟨19, _⟩ => ⟨S4096x8x1024, .f32⟩
  | .hbm, ⟨20, _⟩ => ⟨S4096x8x1024, .f32⟩
  | .hbm, ⟨21, _⟩ => ⟨S_, .f32⟩
  | .hbm, ⟨22, _⟩ => ⟨S4096x8x1, .f32⟩
  | .hbm, ⟨23, _⟩ => ⟨S4096x8x1, .f32⟩
  | .hbm, ⟨24, _⟩ => ⟨S4096x8x1, .f32⟩
  | .hbm, ⟨25, _⟩ => ⟨S4096x8x1024, .f32⟩
  | .hbm, ⟨26, _⟩ => ⟨S4096x8x1024, .f32⟩
  | .hbm, ⟨27, _⟩ => ⟨S1x1x1024, .f32⟩
  | .hbm, ⟨28, _⟩ => ⟨S4096x8x1024, .f32⟩
  | .hbm, ⟨29, _⟩ => ⟨S4096x8x1024, .f32⟩
  | .hbm, ⟨30, _⟩ => ⟨S1x1x1024, .f32⟩
  | .hbm, ⟨31, _⟩ => ⟨S4096x8x1024, .f32⟩
  | .hbm, ⟨32, _⟩ => ⟨S4096x8x1024, .f32⟩
  | .hbm, ⟨33, _⟩ => ⟨S4096x8x1024, .f32⟩
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  reducesTo_S4096x8x1024_S4096x8_d2 : S4096x8x1024.ReducesTo [2] S4096x8
  h_S_ : 0 < S_.numel
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S4096x8x1_S4096x8x1024_0_1_2 : S4096x8x1.BroadcastsInDim S4096x8x1024 (![0, 1, 2] : Fin 3 → Fin S4096x8x1024.rank)
  bcast_S1024_S1x1x1024_2 : S1024.BroadcastsInDim S1x1x1024 (![2] : Fin 1 → Fin S1x1x1024.rank)
  bcast_S1x1x1024_S4096x8x1024_0_1_2 : S1x1x1024.BroadcastsInDim S4096x8x1024 (![0, 1, 2] : Fin 3 → Fin S4096x8x1024.rank)
  dot_S4096x8x1024_S1024x1024_S4096x8x1024_2_0_01_1_n_n_wf : DotDims.WF S4096x8x1024 S1024x1024 S4096x8x1024 [2] [0] [0, 1] [1] [] []

variable [Facts₀]

def dot_S4096x8x1024_S1024x1024_S4096x8x1024_2_0_01_1_n_n : DotDims S4096x8x1024 S1024x1024 S4096x8x1024 where
  lhsContracting := [2]
  rhsContracting := [0]
  lhsNonContracting := [0, 1]
  rhsNonContracting := [1]
  lhsBatch := []
  rhsBatch := []
  wf := dot_S4096x8x1024_S1024x1024_S4096x8x1024_2_0_01_1_n_n_wf

class Facts : Prop extends Facts₀ where

variable [Facts]
-- ==== Proof.Spec.lean ====
/-
  Layer normalisation along the last axis followed by a dense projection, as functions on the extended reals.

  A row x of 1024 entries is centred on its mean  μ = (∑ₖ xₖ) / 1024,  its variance is  σ² = (∑ₖ (xₖ - μ)²) / 1024,
  and the normalised row is  yₕ = (xₕ - μ) · (σ² + ε)^(-1/2) · gₕ + bₕ  with a gain g and an offset b per column.
  The projection contracts the normalised row with a weight matrix:  zf = ∑ₖ yₖ · w(k, f).
  The two constants are the f32 words both programs carry (1024 and ε); they are never evaluated.

  The same row functions are laid out twice: over a [4096, 8, 1024] array, one row per leading pair (s, b), and over
  its flattening [32768, 1024], row 8·s + b; the last section shows that un-flattening the second layout gives the first.
-/
import Idealize.ShloMosaic.PureOps.Ideal
import Idealize.ShloMosaic.Lib.ValueIdx
import Idealize.ShloMosaic.Lib.Pipeline.Value

noncomputable section

namespace Cert.LnDense

open Idealize.ShloMosaic Idealize.ShloMosaic.ValueIdx
open scoped BigOperators

/-! ## One row -/

/-- The row length, as the f32 word of 1024 both programs divide by. -/
def width : EReal := Ideal.ofBits .f32 0x44800000#32

/-- The offset added to the variance, as the f32 word both programs carry. -/
def eps : EReal := Ideal.ofBits .f32 0x358637BD#32

/-- The mean of a row: its sum divided by the row length. -/
def rowMean (x : Fin 1024 → EReal) : EReal := Ideal.div (∑ k, x k) width

/-- A row's entry less the row's mean. -/
def centred (x : Fin 1024 → EReal) (h : Fin 1024) : EReal := x h - rowMean x

/-- The variance of a row: the mean of the squares of its centred entries. -/
def rowVar (x : Fin 1024 → EReal) : EReal := Ideal.div (∑ k, centred x k * centred x k) width

/-- The normalised row: centred, scaled by the inverse root of the offset variance, then gain and offset per column. -/
def normed (x g b : Fin 1024 → EReal) (h : Fin 1024) : EReal :=
  centred x h * Ideal.rsqrt (rowVar x + eps) * g h + b h

/-- The projected row: the normalised row contracted with the weights' column `f`. -/
def projected (x g b : Fin 1024 → EReal) (w : Fin 1024 → Fin 1024 → EReal) (f : Fin 1024) : EReal :=
  ∑ k, normed x g b k * w k f

/-! ## The arrays -/

abbrev Cube : Shape := ⟨3, ![4096, 8, 1024]⟩
abbrev Flat : Shape := ⟨2, ![32768, 1024]⟩
abbrev Line : Shape := ⟨1, ![1024]⟩
abbrev RowLine : Shape := ⟨2, ![1, 1024]⟩
abbrev Square : Shape := ⟨2, ![1024, 1024]⟩

/-- Row (s, b) of a [4096, 8, 1024] array. -/
def cubeRow (x : Cube.Idx → EReal) (s : Fin 4096) (b : Fin 8) : Fin 1024 → EReal := fun k => x (ix3 s b k)
/-- Row r of a [32768, 1024] array. -/
def flatRow (x : Flat.Idx → EReal) (r : Fin 32768) : Fin 1024 → EReal := fun k => x (ix2 r k)
/-- A vector of 1024 entries by its coordinate. -/
def lineAt (v : Line.Idx → EReal) : Fin 1024 → EReal := fun k => v (ix1 k)
/-- The one row of a [1, 1024] array. -/
def rowLineAt (v : RowLine.Idx → EReal) : Fin 1024 → EReal := fun k => v (ix2 (0 : Fin 1) k)
/-- A [1024, 1024] matrix by its two coordinates. -/
def squareAt (w : Square.Idx → EReal) : Fin 1024 → Fin 1024 → EReal := fun k f => w (ix2 k f)

/-- The normalised array, [4096, 8, 1024]: every row (s, b) normalised. -/
def lnCube (x : Cube.Idx → EReal) (g b : Line.Idx → EReal) : Cube.Idx → EReal := fun i =>
  normed (cubeRow x (i 0) (i 1)) (lineAt g) (lineAt b) (i 2)

/-- The projected array, [4096, 8, 1024]: every normalised row contracted with the weights. -/
def denseCube (x : Cube.Idx → EReal) (g b : Line.Idx → EReal) (w : Square.Idx → EReal) : Cube.Idx → EReal := fun i =>
  projected (cubeRow x (i 0) (i 1)) (lineAt g) (lineAt b) (squareAt w) (i 2)

/-- The normalised array in the flat layout, [32768, 1024], gain and offset as [1, 1024] rows. -/
def lnFlat (x : Flat.Idx → EReal) (g b : RowLine.Idx → EReal) : Flat.Idx → EReal := fun i =>
  normed (flatRow x (i 0)) (rowLineAt g) (rowLineAt b) (i 1)

/-- The projected array in the flat layout. -/
def denseFlat (x : Flat.Idx → EReal) (g b : RowLine.Idx → EReal) (w : Square.Idx → EReal) : Flat.Idx → EReal := fun i =>
  projected (flatRow x (i 0)) (rowLineAt g) (rowLineAt b) (squareAt w) (i 1)

/-! ## Flattening and un-flattening -/

/-- Row 8·s + b of the flattened array is row (s, b) of the array. -/
theorem flatRow_flatten (x : Cube.Idx → EReal) (h : Cube.ShapeCasts Flat) (s : Fin 4096) (b : Fin 8) (r : Fin 32768)
    (hr : r.val = s.val * 8 + b.val) : flatRow (shapeCast Flat x h) r = cubeRow x s b := by
  funext k
  unfold flatRow cubeRow
  refine shapeCast_apply x h (ix2 r k) (ix3 s b k) ?_
  rw [Shape.rowMajor_val_three, Shape.rowMajor_val_two]
  show (s.val * 8 + b.val) * 1024 + k.val = r.val * 1024 + k.val
  rw [hr]

/-- The one row of a vector viewed as [1, 1024] is the vector. -/
theorem rowLineAt_reshape (v : Line.Idx → EReal) (h : Line.ShapeCasts RowLine) : rowLineAt (shapeCast RowLine v h) = lineAt v := by
  funext k
  unfold rowLineAt lineAt
  refine shapeCast_apply v h (ix2 (0 : Fin 1) k) (ix1 k) ?_
  rw [Shape.rowMajor_val_one, Shape.rowMajor_val_two]
  show k.val = 0 * 1024 + k.val
  omega

/-- Un-flattening the flat normalised array of the flattened input gives the normalised array. -/
theorem unflatten_lnFlat (x : Cube.Idx → EReal) (g b : Line.Idx → EReal) (hx : Cube.ShapeCasts Flat) (hv : Line.ShapeCasts RowLine)
    (hback : Flat.ShapeCasts Cube) :
    shapeCast Cube (lnFlat (shapeCast Flat x hx) (shapeCast RowLine g hv) (shapeCast RowLine b hv)) hback = lnCube x g b := by
  funext i
  obtain ⟨s, t, c, rfl⟩ : ∃ (s : Fin 4096) (t : Fin 8) (c : Fin 1024), i = ix3 s t c := ⟨i 0, i 1, i 2, eq_ix3 i⟩
  have hlt : s.val * 8 + t.val < 32768 := by have := s.isLt; have := t.isLt; omega
  rw [shapeCast_apply _ hback (ix3 s t c) (ix2 (⟨s.val * 8 + t.val, hlt⟩ : Fin 32768) c) (by
    rw [Shape.rowMajor_val_three, Shape.rowMajor_val_two]; rfl)]
  show normed (flatRow (shapeCast Flat x hx) ⟨s.val * 8 + t.val, hlt⟩) (rowLineAt (shapeCast RowLine g hv)) (rowLineAt (shapeCast RowLine b hv)) c
    = normed (cubeRow x s t) (lineAt g) (lineAt b) c
  rw [flatRow_flatten x hx s t ⟨s.val * 8 + t.val, hlt⟩ rfl, rowLineAt_reshape g hv, rowLineAt_reshape b hv]

/-- Un-flattening the flat projected array of the flattened input gives the projected array. -/
theorem unflatten_denseFlat (x : Cube.Idx → EReal) (g b : Line.Idx → EReal) (w : Square.Idx → EReal) (hx : Cube.ShapeCasts Flat)
    (hv : Line.ShapeCasts RowLine) (hback : Flat.ShapeCasts Cube) :
    shapeCast Cube (denseFlat (shapeCast Flat x hx) (shapeCast RowLine g hv) (shapeCast RowLine b hv) w) hback = denseCube x g b w := by
  funext i
  obtain ⟨s, t, c, rfl⟩ : ∃ (s : Fin 4096) (t : Fin 8) (c : Fin 1024), i = ix3 s t c := ⟨i 0, i 1, i 2, eq_ix3 i⟩
  have hlt : s.val * 8 + t.val < 32768 := by have := s.isLt; have := t.isLt; omega
  rw [shapeCast_apply _ hback (ix3 s t c) (ix2 (⟨s.val * 8 + t.val, hlt⟩ : Fin 32768) c) (by
    rw [Shape.rowMajor_val_three, Shape.rowMajor_val_two]; rfl)]
  show projected (flatRow (shapeCast Flat x hx) ⟨s.val * 8 + t.val, hlt⟩) (rowLineAt (shapeCast RowLine g hv)) (rowLineAt (shapeCast RowLine b hv)) (squareAt w) c
    = projected (cubeRow x s t) (lineAt g) (lineAt b) (squareAt w) c
  rw [flatRow_flatten x hx s t ⟨s.val * 8 + t.val, hlt⟩ rfl, rowLineAt_reshape g hv, rowLineAt_reshape b hv]

end Cert.LnDense

end
-- ==== Proof.RefValue.lean ====
/-
  The reference computes the normalised and the projected arrays.

  Its stages are read at an index (s, t, c) one by one: the row sum over the last axis divided by the row length is
  the row's mean; the entry less the broadcast mean is the centred entry; the sum of the centred squares divided by the
  row length is the variance; the inverse root of the offset variance, broadcast along the row, times the centred
  entry, times the broadcast gain, plus the broadcast offset, is the normalised entry; and the contraction of the
  normalised array's last axis with the weights' first is the projected entry.  The sums start from the zero word,
  which adds nothing.
-/
import proofs.«182222_j1563368095882_1_alg».proof.Proof.Gen.ReferenceIdeal.Read
import proofs.«182222_j1563368095882_1_alg».proof.Proof.Spec

noncomputable section

namespace Cert.LnDense.Ref

open Cert.ReferenceIdeal Cert.ReferenceIdeal.Read Cert.LnDense
open Idealize.ShloMosaic Idealize.ShloMosaic.ValueIdx
open scoped BigOperators

variable (x0 : (⟨S4096x8x1024, .f32⟩ : BufTy).Contents (Elt Ideal))
variable (x1 x2 : (⟨S1024, .f32⟩ : BufTy).Contents (Elt Ideal))
variable (x3 : (⟨S1024x1024, .f32⟩ : BufTy).Contents (Elt Ideal))

/-! ## Where each stage reads its operand -/

/-- The row sum at (s, t) runs over the entries (s, t, k). -/
theorem idx_sum (s : Fin 4096) (t : Fin 8) (u : Fin 1) (k : Fin 1024) : idx_main_v0 (idx_main_v1 (ix3 s t u)) k = ix3 s t k :=
  funext fun a => Fin.ext (by match a with | ⟨0, _⟩ => rfl | ⟨1, _⟩ => rfl | ⟨2, _⟩ => rfl)
/-- So does the sum of squares. -/
theorem idx_sumsq (s : Fin 4096) (t : Fin 8) (u : Fin 1) (k : Fin 1024) : idx_main_v7 (idx_main_v8 (ix3 s t u)) k = ix3 s t k :=
  funext fun a => Fin.ext (by match a with | ⟨0, _⟩ => rfl | ⟨1, _⟩ => rfl | ⟨2, _⟩ => rfl)
/-- A column kept along a unit axis and broadcast along the row is read at the row's one entry. -/
theorem idx_keep4 (s : Fin 4096) (t : Fin 8) (c : Fin 1024) : idx_main_v4 (ix3 s t c) = ix3 s t (0 : Fin 1) :=
  funext fun a => Fin.ext (by match a with | ⟨0, _⟩ => rfl | ⟨1, _⟩ => rfl | ⟨2, _⟩ => rfl)
theorem idx_keep11 (s : Fin 4096) (t : Fin 8) (c : Fin 1024) : idx_main_v11 (ix3 s t c) = ix3 s t (0 : Fin 1) :=
  funext fun a => Fin.ext (by match a with | ⟨0, _⟩ => rfl | ⟨1, _⟩ => rfl | ⟨2, _⟩ => rfl)
theorem idx_keep16 (s : Fin 4096) (t : Fin 8) (c : Fin 1024) : idx_main_v16 (ix3 s t c) = ix3 s t (0 : Fin 1) :=
  funext fun a => Fin.ext (by match a with | ⟨0, _⟩ => rfl | ⟨1, _⟩ => rfl | ⟨2, _⟩ => rfl)
/-- The gain and the offset, broadcast over the leading axes, are read at the column. -/
theorem idx_gain (s : Fin 4096) (t : Fin 8) (c : Fin 1024) : idx_main_v18 (idx_main_v19 (ix3 s t c)) = ix1 c :=
  funext fun a => Fin.ext (by match a with | ⟨0, _⟩ => rfl)
theorem idx_offset (s : Fin 4096) (t : Fin 8) (c : Fin 1024) : idx_main_v21 (idx_main_v22 (ix3 s t c)) = ix1 c :=
  funext fun a => Fin.ext (by match a with | ⟨0, _⟩ => rfl)
/-- The contraction at (s, t, c) pairs the entry (s, t, k) with the weight (k, c). -/
theorem idx_lhs (s : Fin 4096) (t : Fin 8) (c k : Fin 1024) : lidx_main_v24 (ix3 s t c) k = ix3 s t k :=
  funext fun a => Fin.ext (by match a with | ⟨0, _⟩ => rfl | ⟨1, _⟩ => rfl | ⟨2, _⟩ => rfl)
theorem idx_rhs (s : Fin 4096) (t : Fin 8) (c k : Fin 1024) : ridx_main_v24 (ix3 s t c) k = ix2 k c :=
  funext fun a => Fin.ext (by match a with | ⟨0, _⟩ => rfl | ⟨1, _⟩ => rfl)

/-! ## The stages at an index -/

/-- The row sum divided by the row length, kept along a unit axis, is the row's mean. -/
theorem mean_at (s : Fin 4096) (t : Fin 8) (u : Fin 1) :
    val_main_v3 (F := Ideal) x0 (ix3 s t u) = rowMean (cubeRow x0 s t) := by
  rw [val_main_v3_apply, val_main_v1_apply, val_main_v0_apply, val_main_v2_apply, val_main_cst_0_apply, val_main_cst_apply]
  simp only [idx_sum]
  show Ideal.div (Ideal.ofBits .f32 0x00000000#32 + ∑ k : Fin 1024, x0 (ix3 s t k)) (Ideal.ofBits .f32 0x44800000#32) = _
  rw [Ideal.ofBits_zero_f32, zero_add]
  rfl

/-- The entry less the broadcast mean is the centred entry. -/
theorem centred_at (s : Fin 4096) (t : Fin 8) (c : Fin 1024) :
    val_main_v5 (F := Ideal) x0 (ix3 s t c) = centred (cubeRow x0 s t) c := by
  rw [val_main_v5_apply, val_main_v4_apply, idx_keep4, mean_at]
  rfl

/-- The second copy of the centred entry (the reference subtracts the broadcast mean twice). -/
theorem centred_at' (s : Fin 4096) (t : Fin 8) (c : Fin 1024) :
    val_main_v12 (F := Ideal) x0 (ix3 s t c) = centred (cubeRow x0 s t) c := by
  rw [val_main_v12_apply, val_main_v11_apply, idx_keep11, mean_at]
  rfl

/-- The sum of the centred squares divided by the row length is the row's variance. -/
theorem var_at (s : Fin 4096) (t : Fin 8) (u : Fin 1) :
    val_main_v10 (F := Ideal) x0 (ix3 s t u) = rowVar (cubeRow x0 s t) := by
  rw [val_main_v10_apply, val_main_v8_apply, val_main_v7_apply, val_main_v9_apply, val_main_cst_2_apply, val_main_cst_1_apply]
  simp only [idx_sumsq, val_main_v6_apply, centred_at]
  show Ideal.div (Ideal.ofBits .f32 0x00000000#32 + ∑ k : Fin 1024, centred (cubeRow x0 s t) k * centred (cubeRow x0 s t) k) (Ideal.ofBits .f32 0x44800000#32) = _
  rw [Ideal.ofBits_zero_f32, zero_add]
  rfl

/-- The normalised entry. -/
theorem ln_at (s : Fin 4096) (t : Fin 8) (c : Fin 1024) :
    val_main_v23 (F := Ideal) x0 x1 x2 (ix3 s t c) = normed (cubeRow x0 s t) (lineAt x1) (lineAt x2) c := by
  rw [val_main_v23_apply, val_main_v20_apply, val_main_v17_apply, val_main_v16_apply, val_main_v15_apply, val_main_v14_apply,
    val_main_v13_apply, val_main_cst_3_apply, val_main_v19_apply, val_main_v18_apply, val_main_v22_apply, val_main_v21_apply,
    idx_keep16, idx_gain, idx_offset, centred_at', var_at]
  rfl

/-- The projected entry: the normalised row contracted with the weights' column. -/
theorem dense_at (s : Fin 4096) (t : Fin 8) (c : Fin 1024) :
    val_main_v24 (F := Ideal) x0 x1 x2 x3 (ix3 s t c) = projected (cubeRow x0 s t) (lineAt x1) (lineAt x2) (squareAt x3) c := by
  rw [val_main_v24_apply]
  simp only [idx_lhs, idx_rhs, ln_at]
  rfl

/-- The reference's second result is the normalised array. -/
theorem ln_eq : val_main_v23 (F := Ideal) x0 x1 x2 = lnCube x0 x1 x2 := by
  funext i
  obtain ⟨s, t, c, rfl⟩ : ∃ (s : Fin 4096) (t : Fin 8) (c : Fin 1024), i = ix3 s t c := ⟨i 0, i 1, i 2, eq_ix3 i⟩
  exact ln_at x0 x1 x2 s t c

/-- The reference's first result is the projected array. -/
theorem dense_eq : val_main_v24 (F := Ideal) x0 x1 x2 x3 = denseCube x0 x1 x2 x3 := by
  funext i
  obtain ⟨s, t, c, rfl⟩ : ∃ (s : Fin 4096) (t : Fin 8) (c : Fin 1024), i = ix3 s t c := ⟨i 0, i 1, i 2, eq_ix3 i⟩
  exact dense_at x0 x1 x2 x3 s t c

end Cert.LnDense.Ref

end
-- ==== Proof.LibColumns.lean ====
/-
  Column vectors and row sums read at an index.

  A vector of length a viewed as a column [a, 1]; a column broadcast along its unit axis to [a, b]; and the sum of a
  matrix along its second axis, read at a row.  Each reads ONE entry (or one row) of its operand, named here by
  coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Columns

open Idealize.ShloMosaic Idealize.ShloMosaic.ValueIdx
open scoped BigOperators

variable {α : Type}

/-- A vector of length `a` viewed as a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, n]` matrix of extended reals along its second axis, started from the zero word and read at row
    `r`, is `∑ₖ v(r, k)`. -/
theorem multiReduction_add_row {a n : ℕ} (v : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ v 0x00000000#32 h hφ hacc (ix1 r) = ∑ k : Fin n, v (ix2 r k) := by
  refine (Ideal.multiReduction_add_single v 0x00000000#32 h hφ hacc (ix1 r)).trans ?_
  refine Finset.sum_congr rfl fun k _ => ?_
  exact congrArg v (funext fun ax => Fin.ext (by match ax with | ⟨0, _⟩ => rfl | ⟨1, _⟩ => rfl))

end Cert.Columns

end
-- ==== Proof.KernelBody.lean ====
/-
  What the kernel body computes on one block of 512 rows.

  The body reads a [512, 1024] block of the flattened input, the gain and the offset as [1, 1024] rows and the whole
  [1024, 1024] weight matrix.  Row by row it sums the block along its second axis, divides by the row length and
  broadcasts the quotient back along the row (the mean), subtracts, sums the squares the same way (the variance), and
  scales by the inverse root, the gain and the offset: entry (p, q) of its first stored value is the normalised row p of
  the block at q.  The second stored value contracts the first one's second axis with the weights' first axis, starting
  from zero: entry (p, q) is the projected row p at q.  A change of float format is the identity on the extended reals.
-/
import proofs.«182222_j1563368095882_1_alg».proof.Proof.Gen.KernelIdeal.Skeleton
import proofs.«182222_j1563368095882_1_alg».proof.Proof.LibColumns
import proofs.«182222_j1563368095882_1_alg».proof.Proof.Spec
import Idealize.ShloMosaic.Lib.ValueLayout
import Idealize.ShloMosaic.PureOps.Ideal.Laws

noncomputable section

namespace Cert.LnDense.Body

open Cert.KernelIdeal Cert.KernelIdeal.Gen Cert.LnDense Cert.Columns
open Idealize.ShloMosaic Idealize.ShloMosaic.ValueIdx
open scoped BigOperators

/-- Row p of a [512, 1024] block. -/
def blockRow (v : FVec Ideal S512x1024 .f32) (p : Fin 512) : Fin 1024 → EReal := fun k => v (ix2 p k)

/-- A [1024, 1024] block of weights by its two coordinates. -/
def weightAt (w : FVec Ideal S1024x1024 .bf16) : Fin 1024 → Fin 1024 → EReal := fun k f => w (ix2 k f)

/-! ## The normalised block

The row sum enters only through what it is at a row: the sum of the row's entries.  So the block is first described over
ANY operation `red` with that property, stage by stage, and the body's own row sum is then one instance. -/

section OverRowSum

variable (red : FVec Ideal S512x1024 .f32 → FVec Ideal S512 .f32)
variable (hred : ∀ (v : FVec Ideal S512x1024 .f32) (r : Fin 512), red v (ix1 r) = ∑ k : Fin 1024, v (ix2 r k))
variable (hc : S512.ShapeCasts S512x1) (hb : S512x1.Broadcasts S512x1024) (hb1 : S1x1024.Broadcasts S512x1024)

/-- A block's row sums, kept as a column and divided by the row length. -/
def colOver (v : FVec Ideal S512x1024 .f32) : FVec Ideal S512x1 .f32 :=
  divf (shapeCast S512x1 (red v) hc) (broadcast S512x1 (FloatOps.ofBits (F := Ideal) .f32 0x44800000#32))

include hred in
/-- At row p it is the sum of the row over the row length. -/
theorem colOver_at (v : FVec Ideal S512x1024 .f32) (p : Fin 512) (u : Fin 1) :
    colOver red hc v (ix2 p u) = Ideal.div (∑ k : Fin 1024, v (ix2 p k)) width := by
  show Ideal.div (shapeCast S512x1 (red v) hc (ix2 p u)) (Ideal.ofBits .f32 0x44800000#32) = _
  exact congrArg (Ideal.div · _) ((shapeCast_a_a1_apply _ hc p u).trans (hred v p))

/-- The block less its row means broadcast along the rows. -/
def centredBlk (v0 : FVec Ideal S512x1024 .f32) : FVec Ideal S512x1024 .f32 :=
  subf v0 (broadcastTo S512x1024 (colOver red hc v0) hb)

include hred in
/-- Entry (p, k) is the centred entry k of row p. -/
theorem centredBlk_at (v0 : FVec Ideal S512x1024 .f32) (p : Fin 512) (k : Fin 1024) :
    centredBlk red hc hb v0 (ix2 p k) = centred (blockRow v0 p) k := by
  show v0 (ix2 p k) - broadcastTo S512x1024 (colOver red hc v0) hb (ix2 p k) = _
  rw [broadcastTo_a1_ab_apply, colOver_at red hred]
  rfl

/-- The centred block scaled row by row by the inverse root of the offset variance, then by the gain, plus the offset. -/
def normedBlk (v0 : FVec Ideal S512x1024 .f32) (v18 v22 : FVec Ideal S1x1024 .f32) : FVec Ideal S512x1024 .f32 :=
  addf (mulf (mulf (centredBlk red hc hb v0)
      (broadcastTo S512x1024 (rsqrt (addf (colOver red hc (mulf (centredBlk red hc hb v0) (centredBlk red hc hb v0)))
        (broadcast S512x1 (FloatOps.ofBits (F := Ideal) .f32 0x358637BD#32)))) hb))
    (broadcastTo S512x1024 v18 hb1)) (broadcastTo S512x1024 v22 hb1)

include hred in
/-- Entry (p, q) is the normalised row p at q. -/
theorem normedBlk_at (v0 : FVec Ideal S512x1024 .f32) (v18 v22 : FVec Ideal S1x1024 .f32) (p : Fin 512) (q : Fin 1024) :
    normedBlk red hc hb hb1 v0 v18 v22 (ix2 p q) = normed (blockRow v0 p) (rowLineAt v18) (rowLineAt v22) q := by
  show (centredBlk red hc hb v0 (ix2 p q)
        * broadcastTo S512x1024 (rsqrt (addf (colOver red hc (mulf (centredBlk red hc hb v0) (centredBlk red hc hb v0)))
            (broadcast S512x1 (FloatOps.ofBits (F := Ideal) .f32 0x358637BD#32)))) hb (ix2 p q))
      * broadcastTo S512x1024 v18 hb1 (ix2 p q) + broadcastTo S512x1024 v22 hb1 (ix2 p q) = _
  rw [broadcastTo_a1_ab_apply, broadcastTo_1b_ab_apply, broadcastTo_1b_ab_apply, centredBlk_at red hred]
  show centred (blockRow v0 p) q
        * Ideal.rsqrt (colOver red hc (mulf (centredBlk red hc hb v0) (centredBlk red hc hb v0)) (ix2 p (0 : Fin 1)) + Ideal.ofBits .f32 0x358637BD#32)
      * v18 (ix2 (0 : Fin 1) q) + v22 (ix2 (0 : Fin 1) q) = _
  rw [colOver_at red hred]
  simp only [mulf_apply, centredBlk_at red hred]
  rfl

end OverRowSum

/-- Entry (p, q) of the body's first stored value is the normalised row p of the block, at q: the body's row sum,
    started from the zero word, is the sum of the row. -/
theorem normed_block_at (v0 : FVec Ideal S512x1024 .f32) (v18 v22 : FVec Ideal S1x1024 .f32) (p : Fin 512) (q : Fin 1024) :
    k0_pay1 (F := Ideal) v0 v18 v22 (ix2 p q) = normed (blockRow v0 p) (rowLineAt v18) (rowLineAt v22) q := by
  unfold k0_pay1
  simp only [shapeCast_self]
  exact normedBlk_at (fun v => multiReduction .add [1] S512 v 0x00000000#32 reduces_S512x1024_S512 (.inl rfl) rfl)
    (fun v r => multiReduction_add_row v reduces_S512x1024_S512 (.inl rfl) rfl r)
    shapeCasts_S512_S512x1 broadcasts_S512x1_S512x1024 broadcasts_S1x1024_S512x1024 v0 v18 v22 p q

/-! ## The projected block -/

/-- Where the contraction reads its operands: the left one at (row, k), the right one at (k, column). -/
theorem lhs_axis0 (i : S512x1024.Idx) (k : dot_S512x1024_S1024x1024_S512x1024_1_0_0_1_n_n.contr.Idx) :
    (dot_S512x1024_S1024x1024_S512x1024_1_0_0_1_n_n.lhsIdx i k 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_axis1 (i : S512x1024.Idx) (k : dot_S512x1024_S1024x1024_S512x1024_1_0_0_1_n_n.contr.Idx) :
    (dot_S512x1024_S1024x1024_S512x1024_1_0_0_1_n_n.lhsIdx i k 1).val = (k ⟨0, by decide⟩).val :=
  dot_S512x1024_S1024x1024_S512x1024_1_0_0_1_n_n.lhsIdx_val_of_single rfl i k
theorem rhs_axis0 (i : S512x1024.Idx) (k : dot_S512x1024_S1024x1024_S512x1024_1_0_0_1_n_n.contr.Idx) :
    (dot_S512x1024_S1024x1024_S512x1024_1_0_0_1_n_n.rhsIdx i k 0).val = (k ⟨0, by decide⟩).val :=
  dot_S512x1024_S1024x1024_S512x1024_1_0_0_1_n_n.rhsIdx_val_of_single rfl i k
theorem rhs_axis1 (i : S512x1024.Idx) (k : dot_S512x1024_S1024x1024_S512x1024_1_0_0_1_n_n.contr.Idx) :
    (dot_S512x1024_S1024x1024_S512x1024_1_0_0_1_n_n.rhsIdx i k 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (p, q) of the body's second stored value is the projected row p of the block, at q: the product into a zero
    accumulator is the plain sum over the contracted axis. -/
theorem projected_block_at (v0 : FVec Ideal S512x1024 .f32) (v18 v22 : FVec Ideal S1x1024 .f32) (v28 : FVec Ideal S1024x1024 .bf16)
    (p : Fin 512) (q : Fin 1024) :
    k0_pay2 (F := Ideal) v0 v18 v22 v28 (ix2 p q) = projected (blockRow v0 p) (rowLineAt v18) (rowLineAt v22) (weightAt v28) q := by
  unfold k0_pay2
  simp only [shapeCast_self, matmul]
  rw [Ideal.matmul_constant_zero_apply, ← Equiv.sum_comp (contrEquiv1 dot_S512x1024_S1024x1024_S512x1024_1_0_0_1_n_n 1024 rfl rfl).symm]
  unfold projected
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]
  show k0_pay1 (F := Ideal) v0 v18 v22 (ix2 p k) * v28 (ix2 k q) = _
  rw [normed_block_at]
  rfl

end Cert.LnDense.Body

end
-- ==== Proof.KernelValue.lean ====
/-
  The kernel's two result arrays after the run, and the program's two results.

  The grid has 64 points; point t stages rows 512·t … 512·t + 511 of the flattened input, the whole gain and offset rows
  and the whole weight matrix, and writes back rows 512·t … 512·t + 511 of each output.  So what point t writes back is
  block t of ONE whole-array function of the arrays the region finds — the flat normalised array, the flat projected
  array — and the 64 blocks cover the 32768 rows.  Before the region the program flattens the input, views gain and
  offset as rows and changes the weights' format (the identity here); after it, it un-flattens both outputs.
-/
import proofs.«182222_j1563368095882_1_alg».proof.Proof.Gen.KernelIdeal.Frame
import proofs.«182222_j1563368095882_1_alg».proof.Proof.KernelBody
import Idealize.ShloMosaic.Lib.Pipeline.Value
import Idealize.ShloMosaic.Lib.StableHlo.Run

set_option maxRecDepth 16384

noncomputable section

namespace Cert.LnDense.Kernel

open Cert.KernelIdeal Cert.KernelIdeal.Gen Cert.LnDense Cert.LnDense.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays the region finds, at their literal types -/

abbrev xFlat (c : Dev nD) : Flat.Idx → EReal := V m c main_v0
abbrev gainRow (c : Dev nD) : RowLine.Idx → EReal := V m c main_v1
abbrev offsetRow (c : Dev nD) : RowLine.Idx → EReal := V m c main_v2
abbrev weights (c : Dev nD) : Square.Idx → EReal := V m c main_v3

/-- The printed index maps, decided over the 64 points: the input and both outputs are at block (t, 0); gain, offset
    and weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Each input block as rows of its array -/

/-- Row p of the input block at point t is row 512·t + p of the flattened input. -/
theorem xblock_row (c : Dev nD) (t : Fin cfg0.N) (p : Fin 512) (r : Fin 32768) (hr : r.val = t.val * 512 + p.val) :
    blockRow (iblk m c 0 t) p = flatRow (xFlat m c) r := by
  obtain ⟨e0, e1, -⟩ := idx_facts t
  funext k
  show xFlat m c (((cfg0.win 0).blk t).view.emb (ix2 p k)) = xFlat m c (ix2 r k)
  refine congrArg (xFlat m c) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The gain's block at every point is the whole gain row. -/
theorem gain_block (c : Dev nD) (t : Fin cfg0.N) : rowLineAt (iblk m c 1 t) = rowLineAt (gainRow m c) := by
  obtain ⟨-, -, e0, e1, -⟩ := idx_facts t
  funext k
  show gainRow m c (((cfg0.win 1).blk t).view.emb (ix2 (0 : Fin 1) k)) = gainRow m c (ix2 (0 : Fin 1) k)
  refine congrArg (gainRow m c) (funext fun a => Fin.ext ?_)
  match a with
  | ⟨0, _⟩ => show win0_1.index t (0 : Fin 2) * 1 + 1 * 0 = 0; omega
  | ⟨1, _⟩ => show win0_1.index t (1 : Fin 2) * 1024 + 1 * k.val = k.val; omega

/-- The offset's block at every point is the whole offset row. -/
theorem offset_block (c : Dev nD) (t : Fin cfg0.N) : rowLineAt (iblk m c 2 t) = rowLineAt (offsetRow m c) := by
  obtain ⟨-, -, -, -, e0, e1, -⟩ := idx_facts t
  funext k
  show offsetRow m c (((cfg0.win 2).blk t).view.emb (ix2 (0 : Fin 1) k)) = offsetRow m c (ix2 (0 : Fin 1) k)
  refine congrArg (offsetRow m c) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

/-- The weights' block at every point is the whole weight matrix. -/
theorem weight_block (c : Dev nD) (t : Fin cfg0.N) : weightAt (iblk m c 3 t) = squareAt (weights m c) := by
  obtain ⟨-, -, -, -, -, -, e0, e1, -⟩ := idx_facts t
  funext k f
  show weights m c (((cfg0.win 3).blk t).view.emb (ix2 k f)) = weights m c (ix2 k f)
  refine congrArg (weights m c) (funext fun a => Fin.ext ?_)
  match a with
  | ⟨0, _⟩ => show win0_3.index t (0 : Fin 2) * 1024 + 1 * k.val = k.val; omega
  | ⟨1, _⟩ => show win0_3.index t (1 : Fin 2) * 1024 + 1 * f.val = f.val; omega

/-! ## What a point writes back -/

theorem rows_lt (t : Fin cfg0.N) (p : Fin 512) : t.val * 512 + p.val < 32768 := by
  have hN : cfg0.N = 64 := N_0
  have := t.isLt; have := p.isLt; omega

/-- Point t writes back block t of the flat normalised array. -/
theorem flushed_ln (c : Dev nD) (t : Fin cfg0.N) :
    (dats m 0 c).flushed 5 t = ((cfg0.win 5).blk t).view.read (Elt Ideal) (lnFlat (xFlat m c) (gainRow m c) (offsetRow m c)) := by
  show (cfg0.win 5).cut (grid0.coords t) ((dats m 0 c).after 5 t) = _
  rw [after0_5]
  unfold out0_5
  rw [View.canon_unit_zero hz]
  simp only [View.ld_unit_zero (S := S512x1024) hz, View.ld_unit_zero (S := S1x1024) hz]
  obtain ⟨-, -, -, -, -, -, -, -, -, -, e0, e1⟩ := idx_facts t
  funext j
  obtain ⟨p, q, rfl⟩ : ∃ (p : Fin 512) (q : Fin 1024), j = ix2 p q := ⟨j 0, j 1, eq_ix2 j⟩
  have hemb : ((cfg0.win 5).blk t).view.emb (ix2 p q) = ix2 (⟨t.val * 512 + p.val, rows_lt t p⟩ : Fin 32768) q := funext fun a => Fin.ext (by
    match a with
    | ⟨0, _⟩ => show win0_5.index t (0 : Fin 2) * 512 + 1 * p.val = t.val * 512 + p.val; omega
    | ⟨1, _⟩ => show win0_5.index t (1 : Fin 2) * 1024 + 1 * q.val = q.val; omega)
  show k0_pay1 (F := Ideal) (iblk m c 0 t) (iblk m c 1 t) (iblk m c 2 t) (ix2 p q)
    = lnFlat (xFlat m c) (gainRow m c) (offsetRow m c) (((cfg0.win 5).blk t).view.emb (ix2 p q))
  rw [hemb]
  refine (normed_block_at (iblk m c 0 t) (iblk m c 1 t) (iblk m c 2 t) p q).trans ?_
  show _ = normed (flatRow (xFlat m c) ⟨t.val * 512 + p.val, rows_lt t p⟩) (rowLineAt (gainRow m c)) (rowLineAt (offsetRow m c)) q
  rw [xblock_row m c t p ⟨t.val * 512 + p.val, rows_lt t p⟩ rfl, gain_block m c t, offset_block m c t]

/-- Point t writes back block t of the flat projected array. -/
theorem flushed_dense (c : Dev nD) (t : Fin cfg0.N) :
    (dats m 0 c).flushed 4 t = ((cfg0.win 4).blk t).view.read (Elt Ideal) (denseFlat (xFlat m c) (gainRow m c) (offsetRow m c) (weights m c)) := by
  show (cfg0.win 4).cut (grid0.coords t) ((dats m 0 c).after 4 t) = _
  rw [after0_4]
  unfold out0_4
  rw [View.canon_unit_zero hz]
  simp only [View.ld_unit_zero (S := S512x1024) hz, View.ld_unit_zero (S := S1x1024) hz, View.ld_unit_zero (S := S1024x1024) hz]
  obtain ⟨-, -, -, -, -, -, -, -, e0, e1, -⟩ := idx_facts t
  funext j
  obtain ⟨p, q, rfl⟩ : ∃ (p : Fin 512) (q : Fin 1024), j = ix2 p q := ⟨j 0, j 1, eq_ix2 j⟩
  have hemb : ((cfg0.win 4).blk t).view.emb (ix2 p q) = ix2 (⟨t.val * 512 + p.val, rows_lt t p⟩ : Fin 32768) q := funext fun a => Fin.ext (by
    match a with
    | ⟨0, _⟩ => show win0_4.index t (0 : Fin 2) * 512 + 1 * p.val = t.val * 512 + p.val; omega
    | ⟨1, _⟩ => show win0_4.index t (1 : Fin 2) * 1024 + 1 * q.val = q.val; omega)
  show k0_pay2 (F := Ideal) (iblk m c 0 t) (iblk m c 1 t) (iblk m c 2 t) (iblk m c 3 t) (ix2 p q)
    = denseFlat (xFlat m c) (gainRow m c) (offsetRow m c) (weights m c) (((cfg0.win 4).blk t).view.emb (ix2 p q))
  rw [hemb]
  refine (projected_block_at (iblk m c 0 t) (iblk m c 1 t) (iblk m c 2 t) (iblk m c 3 t) p q).trans ?_
  show _ = projected (flatRow (xFlat m c) ⟨t.val * 512 + p.val, rows_lt t p⟩) (rowLineAt (gainRow m c)) (rowLineAt (offsetRow m c)) (squareAt (weights m c)) q
  rw [xblock_row m c t p ⟨t.val * 512 + p.val, rows_lt t p⟩ rfl, gain_block m c t, offset_block m c t, weight_block m c t]

/-! ## The 64 blocks cover the 32768 rows -/

/-- An index of an output array is in point t's block iff each coordinate is in the block's range on its axis. -/
theorem mem_blk_dense (t : Fin cfg0.N) (i : Flat.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_0).slice (win0_4.rect t)).set ↔ _
  rw [View.set_slice_whole, Rect.mem_set_unit]
  exact Iff.rfl

theorem mem_blk_ln (t : Fin cfg0.N) (i : Flat.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_1).slice (win0_5.rect t)).set ↔ _
  rw [View.set_slice_whole, Rect.mem_set_unit]
  exact Iff.rfl

/-- The point whose block holds row r is r / 512. -/
def pointOf (i : Flat.Idx) : Fin cfg0.N := ⟨(i 0).val / 512, by
  have hN : cfg0.N = 64 := N_0
  have : (i 0).val < 32768 := (i 0).isLt
  omega⟩

theorem cover_dense (i : Flat.Idx) : ∃ t : Fin cfg0.N, (cfg0.win 4).flush t = true ∧ i ∈ ((cfg0.win 4).blk t).view.set := by
  have hi1 : (i 1).val < 1024 := (i 1).isLt
  obtain ⟨-, -, -, -, -, -, -, -, e0, e1, -⟩ := idx_facts (pointOf i)
  have ht : (pointOf i).val = (i 0).val / 512 := rfl
  refine ⟨pointOf i, flush0_4 _, ?_⟩
  rw [mem_blk_dense]
  intro a
  match a with
  | ⟨0, _⟩ => show win0_4.index (pointOf i) (0 : Fin 2) * 512 ≤ (i 0).val ∧ (i 0).val < win0_4.index (pointOf i) (0 : Fin 2) * 512 + 512; omega
  | ⟨1, _⟩ => show win0_4.index (pointOf i) (1 : Fin 2) * 1024 ≤ (i 1).val ∧ (i 1).val < win0_4.index (pointOf i) (1 : Fin 2) * 1024 + 1024; omega

theorem cover_ln (i : Flat.Idx) : ∃ t : Fin cfg0.N, (cfg0.win 5).flush t = true ∧ i ∈ ((cfg0.win 5).blk t).view.set := by
  have hi1 : (i 1).val < 1024 := (i 1).isLt
  obtain ⟨-, -, -, -, -, -, -, -, -, -, e0, e1⟩ := idx_facts (pointOf i)
  have ht : (pointOf i).val = (i 0).val / 512 := rfl
  refine ⟨pointOf i, flush0_5 _, ?_⟩
  rw [mem_blk_ln]
  intro a
  match a with
  | ⟨0, _⟩ => show win0_5.index (pointOf i) (0 : Fin 2) * 512 ≤ (i 0).val ∧ (i 0).val < win0_5.index (pointOf i) (0 : Fin 2) * 512 + 512; omega
  | ⟨1, _⟩ => show win0_5.index (pointOf i) (1 : Fin 2) * 1024 ≤ (i 1).val ∧ (i 1).val < win0_5.index (pointOf i) (1 : Fin 2) * 1024 + 1024; omega

/-! ## The output arrays after the region -/

theorem final_dense (c : Dev nD) : (dats m 0 c).arrAt 4 cfg0.N = denseFlat (xFlat m c) (gainRow m c) (offsetRow m c) (weights m c) :=
  (dats m 0 c).arrAt_eq_of_cover 4 _ (fun t _ => flushed_dense m c t) cover_dense

theorem final_ln (c : Dev nD) : (dats m 0 c).arrAt 5 cfg0.N = lnFlat (xFlat m c) (gainRow m c) (offsetRow m c) :=
  (dats m 0 c).arrAt_eq_of_cover 5 _ (fun t _ => flushed_ln m c t) cover_ln

/-! ## The host lines before the region -/

theorem xFlat_eq (c : Dev nD) : xFlat m c = shapeCast Flat (m ((c : Thread nD τ).loc main_arg0) : Cube.Idx → EReal) shapeCasts_S4096x8x1024_S32768x1024 := by
  show StableHlo.after hostOps0 (fun b => m (c, b)) (Proc.devRef .tc main_v0) = _
  after_results
  rfl

theorem gainRow_eq (c : Dev nD) : gainRow m c = shapeCast RowLine (m ((c : Thread nD τ).loc main_arg1) : Line.Idx → EReal) shapeCasts_S1024_S1x1024 := by
  show StableHlo.after hostOps0 (fun b => m (c, b)) (Proc.devRef .tc main_v1) = _
  after_results
  rfl

theorem offsetRow_eq (c : Dev nD) : offsetRow m c = shapeCast RowLine (m ((c : Thread nD τ).loc main_arg2) : Line.Idx → EReal) shapeCasts_S1024_S1x1024 := by
  show StableHlo.after hostOps0 (fun b => m (c, b)) (Proc.devRef .tc main_v2) = _
  after_results
  rfl

/-- The change of the weights' float format is the identity on the extended reals. -/
theorem weights_eq (c : Dev nD) : weights m c = (m ((c : Thread nD τ).loc main_arg3) : Square.Idx → EReal) := by
  show StableHlo.after hostOps0 (fun b => m (c, b)) (Proc.devRef .tc main_v3) = _
  after_results
  rfl

/-! ## The host lines after the region: both outputs un-flattened -/

/-- The program's first result is the projected array of its arguments. -/
theorem result_dense (c : Dev nD) :
    Pipeline.afterTail₀ cfgs (dats m) 0 (V0 m) [hostOps1] c main_v5
      = denseCube (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4_0)
      = denseFlat (xFlat m c) (gainRow m c) (offsetRow m c) (weights m c) :=
    (Pipeline.withArrays_arr spec0 launch0.win.arr_inj c _ _ 4).trans (final_dense m c)
  rw [hw, xFlat_eq, gainRow_eq, offsetRow_eq, weights_eq]
  exact unflatten_denseFlat _ _ _ _ shapeCasts_S4096x8x1024_S32768x1024 shapeCasts_S1024_S1x1024 shapeCasts_S32768x1024_S4096x8x1024

/-- The program's second result is the normalised array of its arguments. -/
theorem result_ln (c : Dev nD) :
    Pipeline.afterTail₀ cfgs (dats m) 0 (V0 m) [hostOps1] c main_v6
      = lnCube (m ((c : Thread nD τ).loc main_arg0)) (m ((c : Thread nD τ).loc main_arg1)) (m ((c : Thread nD τ).loc main_arg2)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4_1)
      = lnFlat (xFlat m c) (gainRow m c) (offsetRow m c) :=
    (Pipeline.withArrays_arr spec0 launch0.win.arr_inj c _ _ 5).trans (final_ln m c)
  rw [hw, xFlat_eq, gainRow_eq, offsetRow_eq]
  exact unflatten_lnFlat _ _ _ shapeCasts_S4096x8x1024_S32768x1024 shapeCasts_S1024_S1x1024 shapeCasts_S32768x1024_S4096x8x1024

/-! ## The run, read -/

/-- Every weakly fair execution of the program ends with its first result at the projected array and its second at the
    normalised array of its arguments, and with the arguments unchanged. -/
theorem run : θ_run defs (onTc (τ := τ) (main (F := Ideal))) ⟨m, fun _ => 0, ρ⟩ fun r => ∀ c : Dev nD,
      r.2.mem ((c : Thread nD τ).loc main_v5)
        = denseCube (m ((c : Thread nD τ).loc main_arg0)) (m ((c : Thread nD τ).loc main_arg1)) (m ((c : Thread nD τ).loc main_arg2)) (m ((c : Thread nD τ).loc main_arg3))
      ∧ r.2.mem ((c : Thread nD τ).loc main_v6)
        = lnCube (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v5 (Pipeline.mem_restRefs_of main_v5 (by decide) (by decide))).trans (result_dense m c),
      ((h c).2 main_v6 (Pipeline.mem_restRefs_of main_v6 (by decide) (by decide))).trans (result_ln m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.LnDense.Kernel

end
-- ==== Proof.lean ====
/-
  Layer normalisation over the last axis of a [4096, 8, 1024] array followed by a dense projection onto 1024 columns:
  a kernel over 64 blocks of 512 flattened rows against the plain array program, equal on the extended reals.

  Both programs return the projected array and the normalised array.  For a row x with mean μ = (∑ₖ xₖ) / 1024 and
  variance σ² = (∑ₖ (xₖ - μ)²) / 1024 the normalised row is yₕ = (xₕ - μ) · (σ² + ε)^(-1/2) · gₕ + bₕ and the projected
  row is zf = ∑ₖ yₖ · w(k, f).  The kernel works on the flattening to [32768, 1024] (row 8·s + b), one block of 512
  rows at a grid point, and un-flattens its two outputs; the reference works on the array as it is.  The two spell the
  same operations in the same order, with the same two constants; they differ in how a sum is carried out (a lane
  reduction and a matrix product into a zero accumulator against a host reduction and a general contraction, each a
  finite sum on the extended reals, started from zero) and in a change of float format in front of the kernel's
  product, which is the identity there.  No law of the extended reals beyond 0 + a = a is used, so the inputs'
  finiteness is not needed.

  The two kernel frames are the generated ones; the reference's frame is its generated run with the results dropped;
  the idealisation rewrote nothing, so there is nothing to preserve.
-/
import proofs.«182222_j1563368095882_1_alg».proof.Defs
import proofs.«182222_j1563368095882_1_alg».proof.Proof.Gen.Kernel
import proofs.«182222_j1563368095882_1_alg».proof.Proof.Gen.Kernel.Skeleton
import proofs.«182222_j1563368095882_1_alg».proof.Proof.Gen.Kernel.Launch
import proofs.«182222_j1563368095882_1_alg».proof.Proof.Gen.Kernel.Points
import proofs.«182222_j1563368095882_1_alg».proof.Proof.Gen.Kernel.Frame
import proofs.«182222_j1563368095882_1_alg».proof.Proof.Gen.KernelIdeal
import proofs.«182222_j1563368095882_1_alg».proof.Proof.Gen.KernelIdeal.Skeleton
import proofs.«182222_j1563368095882_1_alg».proof.Proof.Gen.KernelIdeal.Launch
import proofs.«182222_j1563368095882_1_alg».proof.Proof.Gen.KernelIdeal.Points
import proofs.«182222_j1563368095882_1_alg».proof.Proof.Gen.KernelIdeal.Frame
import proofs.«182222_j1563368095882_1_alg».proof.Proof.Gen.ReferenceIdeal
import proofs.«182222_j1563368095882_1_alg».proof.Proof.Gen.ReferenceIdeal.Run
import proofs.«182222_j1563368095882_1_alg».proof.Proof.Gen.ReferenceIdeal.Read
import proofs.«182222_j1563368095882_1_alg».proof.Proof.Gen.Pre_finite_inputs
import proofs.«182222_j1563368095882_1_alg».proof.Proof.RefValue
import proofs.«182222_j1563368095882_1_alg».proof.Proof.KernelValue
import Idealize.ShloMosaic.Adequacy
import Idealize.ShloMosaic.Init

noncomputable section

namespace Cert.Proof

open Idealize.ShloMosaic Idealize.SL.Sem

/-- The kernel runs and keeps its arguments, word by word. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and keeps its arguments: its run, with what it says of the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both programs end with the projected array first and the normalised array second. -/
theorem algebraic : Cert.algebraic_KernelIdeal_ReferenceIdeal := by
  intro m ρ m' ρ' _ hagree
  refine ⟨_, _, Cert.LnDense.Kernel.run m ρ, ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ?_, (h c).2.1.trans ?_, (h c).2.2⟩
  · rw [Cert.ReferenceIdeal.Read.val_main_v24_eq, Cert.LnDense.Ref.dense_eq, a0, a1, a2, a3]
  · rw [Cert.ReferenceIdeal.Read.val_main_v23_eq, Cert.LnDense.Ref.ln_eq, a0, a1, a2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
